-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg4 : FVec F S2048 .f32) (main_v33 : IVec S_ 1) : IVec S_ 1 :=
  let main_cst_12 : FVec F S_ .f32 := constant S_ .f32 0x3727C5AC#32
  let main_v34 : FVec F S2048 .f32 := broadcastInDim S2048 ![] bcast_S_S2048 main_cst_12
  let main_v35 : FVec F S2048 .f32 := addf main_arg4 main_v34
  let main_cst_13 : FVec F S_ .f32 := constant S_ .f32 0x00000000#32
  let main_v36 : FVec F S2048 .f32 := broadcastInDim S2048 ![] bcast_S_S2048 main_cst_13
  let main_v37 : IVec S2048 1 := cmpf .ogt main_v35 main_v36
  let main_c_14 : IVec S_ 1 := constantI S_ 1 1#1
  let main_v38 : IVec S_ 1 := (fun x v => Host.reduce IntOp.andi x v reducesTo_S2048_S_d0 h_S_) main_v37 main_c_14
  let main_v39 : IVec S_ 1 := andi main_v33 main_v38
  main_v39

def fn_part1 {F : FTy → Type} [FloatOps F] (main_arg4 : FVec F S2048 .f32) (main_arg5 : FVec F S2048 .f32) (main_arg6 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg4 main_v33

def fn {F : FTy → Type} [FloatOps F] (main_arg0 : FVec F S4096x2048 .f32) (main_arg1 : FVec F S2048x2048 .f32) (main_arg2 : FVec F S2048 .f32) (main_arg3 : FVec F S2048 .f32) (main_arg4 : FVec F S2048 .f32) (main_arg5 : FVec F S2048 .f32) (main_arg6 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S1x2048 : Shape := ⟨2, ![1, 2048]⟩
abbrev S512x2048 : Shape := ⟨2, ![512, 2048]⟩
abbrev S1x512 : Shape := ⟨2, ![1, 512]⟩
abbrev S512x512 : Shape := ⟨2, ![512, 512]⟩

abbrev nBuf : Space → Nat
  | .hbm => 22
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S1x2048, .f32⟩
  | .hbm, ⟨21, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S2048 : S_.BroadcastsInDim S2048 (![] : Fin 0 → Fin S2048.rank)
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x2048_S512x2048_S512x512_1_1_0_0_n_n_wf : DotDims.WF S512x2048 S512x2048 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x2048.size a
  hwx0_3 : ∀ i : grid0.Coords, EltTy.bits .f32 = 32 ∨ (Rect.block (s := S1x2048) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x2048.size a
  hwx0_4 : ∀ i : grid0.Coords, EltTy.bits .f32 = 32 ∨ (Rect.block (s := S4096x2048) S512x512.size (cc0_transform_4 i) (hinb0_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S2048 : S_.BroadcastsInDim S2048 (![] : Fin 0 → Fin S2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.EntryLaw.lean ====
/-
  One output entry, as arithmetic on the extended reals.

  Write `a` for the contraction `∑ₖ x[b,k]·w[o,k]` and `s = √(var[o] + ε)`. The kernel folds the per-channel
  scale and the inference batch-norm into one affine pair computed beforehand,
  `cs = (scale·γ)·(1/s)` and `cb = β − (μ·γ)·(1/s)`, and stores `a·cs + cb`; the reference computes
  `γ·((a·scale − μ)/s) + β`. On the extended reals a quotient by zero is an infinity and the two
  arrangements then differ (`∞ − ∞` on one side only), so the law is stated where it is a law of a field:
  every quantity a real number and `var + ε > 0`, which makes `s` a positive real and the quotient the product
  with `1/s`.
-/
import Idealize.ShloMosaic.PureOps.Ideal

noncomputable section

namespace Cert.Fold

open Idealize.ShloMosaic

/-! ## The words the programs spell -/

/-- The pattern of `+∞`, against which the precondition compares magnitudes. -/
theorem ofBits_inf : Ideal.ofBits .f32 0x7F800000#32 = ⊤ := by
  simp [Ideal.ofBits, Ideal.ieee]

/-- The pattern of `+0.0`: the matrix unit's initial accumulator, and the bound `var + ε` is compared with. -/
theorem ofBits_zero : Ideal.ofBits .f32 0x00000000#32 = 0 := by
  simp [Ideal.ofBits, Ideal.ieee]

/-- The pattern of `1.0`, the numerator of the kernel's reciprocal standard deviation. -/
theorem ofBits_one : Ideal.ofBits .f32 0x3F800000#32 = 1 := by
  simp [Ideal.ofBits, Ideal.ieee, -EReal.coe_mul]; norm_num

/-- The real number `ε` denotes: the binary fraction nearest `10⁻⁵`. -/
def epsR : ℝ := 10995116 * (2 ^ 40)⁻¹

/-- `ε`'s pattern denotes a real number (neither infinity). -/
theorem ofBits_eps : Ideal.ofBits .f32 0x3727C5AC#32 = ((epsR : ℝ) : EReal) := by
  simp [Ideal.ofBits, Ideal.ieee, -EReal.coe_mul, epsR]

/-! ## A finite sum of products of reals is a real -/

/-- The coercion of reals into the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A contraction of two families of real numbers is a real number: `0 + ∑ₖ f k · g k`. -/
theorem contraction_real {ι : Type} [Fintype ι] (f g : ι → EReal) (hf : ∀ k, ∃ r : ℝ, f k = r) (hg : ∀ k, ∃ r : ℝ, g k = r) :
    ∃ r : ℝ, (0 : EReal) + ∑ k, f k * g k = r := by
  choose rf hrf using hf
  choose rg hrg using hg
  refine ⟨∑ k, rf k * rg k, ?_⟩
  rw [zero_add, coe_sum]
  exact Finset.sum_congr rfl fun k _ => by rw [hrf, hrg, EReal.coe_mul]

/-! ## The law -/

/-- The folded affine pair applied to the contraction is the reference's normalise-then-affine, when every quantity
    is a real number and the radicand is positive. -/
theorem entry_eq {a sc g mu v b e : ℝ} (h : 0 < v + e) :
    (a : EReal) * (((sc : EReal) * g) * Ideal.div 1 (Ideal.sqrt ((v : EReal) + e)))
        + ((b : EReal) - ((mu : EReal) * g) * Ideal.div 1 (Ideal.sqrt ((v : EReal) + e)))
      = (g : EReal) * Ideal.div ((a : EReal) * sc - mu) (Ideal.sqrt ((v : EReal) + e)) + b := by
  have hs : Real.sqrt (v + e) ≠ 0 := (Real.sqrt_pos.2 h).ne'
  rw [← EReal.coe_add, Ideal.sqrt_coe, if_neg (not_lt.2 h.le), Ideal.div_coe hs, Ideal.div_coe hs]
  rw [← EReal.coe_one]
  simp only [← EReal.coe_mul, ← EReal.coe_sub, ← EReal.coe_add]
  congr 1
  ring

end Cert.Fold

end
-- ==== Proof.PreRead.lean ====
/-
  The precondition, read back entry by entry.

  The printed predicate is a conjunction of eight `all`-reductions: for each of the seven argument arrays that
  every entry's magnitude is below `+∞`, and that every entry of `var + ε` is above zero. On the extended reals a
  magnitude `max x (−x)` is below `+∞` exactly when `x` is a real number, so the predicate says: every
  argument entry is a real number, and every radicand the batch-norm takes a root of is positive.
-/
import proofs.«158642_j3556232921810_1_alg».proof.Pre_finite_inputs
import proofs.«158642_j3556232921810_1_alg».proof.Proof.EntryLaw
import Idealize.ShloMosaic.Lib.ReduceAll
import Idealize.ShloMosaic.Lib.ValueIdx
import Idealize.ShloMosaic.Lib.StableHlo.Predicate
import Idealize.ShloMosaic.PureOps.Ideal.Laws

noncomputable section

namespace Cert.Fold

open Idealize.ShloMosaic Idealize.ShloMosaic.ValueIdx

/-- An extended real whose magnitude is below `+∞` is a real number. -/
theorem real_of_abs_lt_inf (x : EReal)
    (h : Ideal.cmp .olt (max x (-x)) (Ideal.ofBits .f32 0x7F800000#32) = 1#1) : ∃ r : ℝ, x = r := by
  rw [ofBits_inf] at h
  have h' : max x (-x) < ⊤ := of_decide_eq_true ((StableHlo.Predicate.ofBool_eq_one_iff _).1 h)
  induction x using EReal.rec with
  | bot => simp at h'
  | coe r => exact ⟨r, rfl⟩
  | top => simp at h'

/-- A comparison "above the zero word" that holds says the value is positive. -/
theorem pos_of_cmp_gt_zero (x : EReal) (h : Ideal.cmp .ogt x (Ideal.ofBits .f32 0x00000000#32) = 1#1) : 0 < x := by
  rw [ofBits_zero] at h
  exact of_decide_eq_true ((StableHlo.Predicate.ofBool_eq_one_iff _).1 h)

/-- A conjunction of two one-bit arrays that is 1 at an index has both conjuncts 1 there. -/
theorem both_of_andi {s : Shape} (p q : IVec s 1) (i : s.Idx) (h : andi p q i = 1#1) : p i = 1#1 ∧ q i = 1#1 :=
  IntOp.andi_eq_one.1 h

section
variable [Cert.Pre_finite_inputs.Facts]
open Cert.Pre_finite_inputs

instance : Subsingleton S_.Idx := ⟨fun a b => funext fun d => d.elim0⟩

/-- What the precondition says of the seven argument arrays: each entry a real number, each radicand positive. -/
theorem args_of_pre (a0 : FVec Ideal S4096x2048 .f32) (a1 : FVec Ideal S2048x2048 .f32) (a2 a3 a4 a5 a6 : FVec Ideal S2048 .f32)
    (h : Cert.Pre_finite_inputs.fn (F := Ideal) a0 a1 a2 a3 a4 a5 a6 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) ∧ (∀ i, ∃ r : ℝ, a6 i = r)
      ∧ (∀ i, 0 < a4 i + Ideal.ofBits .f32 0x3727C5AC#32) := by
  have h0 := congrFun h ix0
  dsimp only [Cert.Pre_finite_inputs.fn, Cert.Pre_finite_inputs.fn_part1, Cert.Pre_finite_inputs.fn_part2] at h0
  obtain ⟨h0, e7⟩ := both_of_andi _ _ _ h0
  obtain ⟨h0, e6⟩ := both_of_andi _ _ _ h0
  obtain ⟨h0, e5⟩ := both_of_andi _ _ _ h0
  obtain ⟨h0, e4⟩ := both_of_andi _ _ _ h0
  obtain ⟨h0, e3⟩ := both_of_andi _ _ _ h0
  obtain ⟨h0, e2⟩ := both_of_andi _ _ _ h0
  obtain ⟨e0, e1⟩ := both_of_andi _ _ _ h0
  refine ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i),
    fun i => real_of_abs_lt_inf _ (Host.reduce_andi_all _ _ _ _ _ e3 i),
    fun i => real_of_abs_lt_inf _ (Host.reduce_andi_all _ _ _ _ _ e4 i),
    fun i => real_of_abs_lt_inf _ (Host.reduce_andi_all _ _ _ _ _ e5 i),
    fun i => real_of_abs_lt_inf _ (Host.reduce_andi_all _ _ _ _ _ e6 i),
    fun i => pos_of_cmp_gt_zero _ (Host.reduce_andi_all _ _ _ _ _ e7 i)⟩

end

end Cert.Fold

end
-- ==== Proof.Spec.lean ====
/-
  The two arrangements as whole-array functions of the seven argument arrays, index by index, and their equality.

  `x : [4096, 2048]`, `w : [2048, 2048]`, and five per-channel vectors of length 2048: `scale`, the running
  mean `μ`, the running variance `var`, `γ`, `β`. With `a[b,o] = ∑ₖ x[b,k]·w[o,k]` and `s[o] = √(var[o] + ε)`:
  the reference's entry is `γ[o]·((a[b,o]·scale[o] − μ[o]) / s[o]) + β[o]`, the kernel's is
  `a[b,o]·((scale[o]·γ[o])·(1/s[o])) + (β[o] − (μ[o]·γ[o])·(1/s[o]))`.
-/
import Idealize.ShloMosaic.Lib.ValueIdx
import proofs.«158642_j3556232921810_1_alg».proof.Proof.EntryLaw

noncomputable section

namespace Cert.Fold

open Idealize.ShloMosaic Idealize.ShloMosaic.ValueIdx

abbrev SX : Shape := ⟨2, ![4096, 2048]⟩
abbrev SW : Shape := ⟨2, ![2048, 2048]⟩
abbrev SC : Shape := ⟨1, ![2048]⟩

/-- The contraction over the shared last axis: entry `(b, o)` of `x · wᵀ`. -/
def dotAt (x : SX.Idx → EReal) (w : SW.Idx → EReal) (b : Fin 4096) (o : Fin 2048) : EReal :=
  ∑ k : Fin 2048, x (ix2 b k) * w (ix2 o k)

/-- The standard deviation the batch-norm divides by, channel `o`: `√(var[o] + ε)`. -/
def stdAt (var : SC.Idx → EReal) (o : Fin 2048) : EReal :=
  Ideal.sqrt (var (ix1 o) + Ideal.ofBits .f32 0x3727C5AC#32)

/-- The reference's arrangement: scale the contraction, normalise, then the affine map. -/
def refOut (x : SX.Idx → EReal) (w : SW.Idx → EReal) (sc mu var g be : SC.Idx → EReal) : SX.Idx → EReal := fun i =>
  g (ix1 (i 1)) * Ideal.div (dotAt x w (i 0) (i 1) * sc (ix1 (i 1)) - mu (ix1 (i 1))) (stdAt var (i 1)) + be (ix1 (i 1))

/-- The kernel's combined per-channel scale: `(scale·γ)·(1/s)`. -/
def combScale (sc var g : SC.Idx → EReal) (o : Fin 2048) : EReal :=
  (sc (ix1 o) * g (ix1 o)) * Ideal.div (Ideal.ofBits .f32 0x3F800000#32) (stdAt var o)

/-- The kernel's combined per-channel bias: `β − (μ·γ)·(1/s)`. -/
def combBias (mu var g be : SC.Idx → EReal) (o : Fin 2048) : EReal :=
  be (ix1 o) - (mu (ix1 o) * g (ix1 o)) * Ideal.div (Ideal.ofBits .f32 0x3F800000#32) (stdAt var o)

/-- The kernel's arrangement: one multiply-add of the contraction with the combined pair. -/
def kerOut (x : SX.Idx → EReal) (w : SW.Idx → EReal) (sc mu var g be : SC.Idx → EReal) : SX.Idx → EReal := fun i =>
  dotAt x w (i 0) (i 1) * combScale sc var g (i 1) + combBias mu var g be (i 1)

/-- Where every argument entry is a real number and every radicand `var[o] + ε` is positive, the two arrangements
    are one array: entry by entry the contraction is a real number and `EntryLaw.entry_eq` applies. -/
theorem kerOut_eq_refOut (x : SX.Idx → EReal) (w : SW.Idx → EReal) (sc mu var g be : SC.Idx → EReal)
    (hx : ∀ i, ∃ r : ℝ, x i = r) (hw : ∀ i, ∃ r : ℝ, w i = r) (hsc : ∀ i, ∃ r : ℝ, sc i = r) (hmu : ∀ i, ∃ r : ℝ, mu i = r)
    (hvar : ∀ i, ∃ r : ℝ, var i = r) (hg : ∀ i, ∃ r : ℝ, g i = r) (hbe : ∀ i, ∃ r : ℝ, be i = r)
    (hpos : ∀ i, 0 < var i + Ideal.ofBits .f32 0x3727C5AC#32) :
    kerOut x w sc mu var g be = refOut x w sc mu var g be := by
  funext i
  obtain ⟨a, ha⟩ : ∃ a : ℝ, dotAt x w (i 0) (i 1) = a := by
    have := contraction_real (fun k : Fin 2048 => x (ix2 (i 0) k)) (fun k => w (ix2 (i 1) k)) (fun k => hx _) (fun k => hw _)
    rwa [zero_add] at this
  obtain ⟨rsc, hrsc⟩ := hsc (ix1 (i 1))
  obtain ⟨rmu, hrmu⟩ := hmu (ix1 (i 1))
  obtain ⟨rv, hrv⟩ := hvar (ix1 (i 1))
  obtain ⟨rg, hrg⟩ := hg (ix1 (i 1))
  obtain ⟨rb, hrb⟩ := hbe (ix1 (i 1))
  have hp : 0 < rv + epsR := by
    have := hpos (ix1 (i 1))
    rw [hrv, ofBits_eps, ← EReal.coe_add] at this
    exact_mod_cast this
  show dotAt x w (i 0) (i 1) * combScale sc var g (i 1) + combBias mu var g be (i 1)
    = g (ix1 (i 1)) * Ideal.div (dotAt x w (i 0) (i 1) * sc (ix1 (i 1)) - mu (ix1 (i 1))) (stdAt var (i 1)) + be (ix1 (i 1))
  unfold combScale combBias stdAt
  rw [ha, hrsc, hrmu, hrv, hrg, hrb, ofBits_eps, ofBits_one]
  exact entry_eq hp

end Cert.Fold

end
-- ==== Proof.RefValue.lean ====
/-
  The reference's result array is `refOut` of its arguments.

  The reference's last stage, read at an index through the stages before it, is: `γ` at the column, times the
  quotient of (the contraction at (row, column), times `scale` at the column, minus `μ` at the column) by the root
  of (`var` at the column plus `ε`), plus `β` at the column. Every broadcast reads its operand at the column; the
  contraction reads `x` at (row, k) and `w` at (column, k).
-/
import proofs.«158642_j3556232921810_1_alg».proof.Proof.Gen.ReferenceIdeal.Read
import proofs.«158642_j3556232921810_1_alg».proof.Proof.Spec

noncomputable section

namespace Cert.Fold.Ref

open Cert.ReferenceIdeal Cert.ReferenceIdeal.Gen Cert.ReferenceIdeal.Read Idealize.ShloMosaic Idealize.ShloMosaic.ValueIdx Cert.Fold

/-- A vector broadcast to a row and then down the rows is read at the column. -/
theorem col_of_bcast (i : S4096x2048.Idx) : idx_main_v1 (idx_main_v2 i) = ix1 (i 1) :=
  funext fun a => match a with | ⟨0, _⟩ => rfl

/-- The contraction's left operand is read at (row, k), -/
theorem lidx_eq (i : S4096x2048.Idx) (k : Fin 2048) : lidx_main_v0 i k = ix2 (i 0) k :=
  funext fun a => match a with | ⟨0, _⟩ => rfl | ⟨1, _⟩ => rfl

/-- and its right operand at (column, k). -/
theorem ridx_eq (i : S4096x2048.Idx) (k : Fin 2048) : ridx_main_v0 i k = ix2 (i 1) k :=
  funext fun a => match a with | ⟨0, _⟩ => rfl | ⟨1, _⟩ => rfl

/-- The reference's result, stage by stage at an index, is the reference's arrangement of `Spec`. -/
theorem result_eq (x0 : FVec Ideal S4096x2048 .f32) (x1 : FVec Ideal S2048x2048 .f32) (x2 x3 x4 x5 x6 : FVec Ideal S2048 .f32) :
    val_main_v18 (F := Ideal) x0 x1 x2 x3 x4 x5 x6 = refOut x0 x1 x2 x3 x4 x5 x6 := by
  funext i
  rw [val_main_v18_apply, val_main_v15_apply, val_main_v17_apply, val_main_v16_apply, val_main_v14_apply, val_main_v13_apply,
    val_main_v12_apply, val_main_v6_apply, val_main_v11_apply, val_main_v10_apply, val_main_v9_apply, val_main_v8_apply,
    val_main_v7_apply, val_main_cst_apply, val_main_v3_apply, val_main_v5_apply, val_main_v4_apply, val_main_v0_apply,
    val_main_v2_apply, val_main_v1_apply]
  have c13 : idx_main_v13 (idx_main_v14 i) = ix1 (i 1) := col_of_bcast i
  have c16 : idx_main_v16 (idx_main_v17 i) = ix1 (i 1) := col_of_bcast i
  have c10 : idx_main_v10 (idx_main_v11 i) = ix1 (i 1) := col_of_bcast i
  have c4 : idx_main_v4 (idx_main_v5 i) = ix1 (i 1) := col_of_bcast i
  rw [c13, c16, c10, c4, col_of_bcast i]
  simp only [lidx_eq, ridx_eq]
  rfl

end Cert.Fold.Ref

end
-- ==== Proof.KernelBlock.lean ====
/-
  One grid point's block of the kernel's output, entry by entry.

  At a grid point the body loads a [512, 2048] block of `x`, a [512, 2048] block of `w`, and a [1, 512] piece of
  each of the combined scale and bias rows, and stores `(xblk · wblkᵀ) · cs + cb` with the rows broadcast down the
  512 rows. Entry `(p, q)` of what it stores is `(∑ₖ xblk[p,k]·wblk[q,k]) · cs[0,q] + cb[0,q]`: the narrowing to
  bf16 before the product is the identity on extended reals, and the matrix unit's product into a zero accumulator
  is the plain sum.
-/
import proofs.«158642_j3556232921810_1_alg».proof.Proof.Gen.KernelIdeal.Skeleton
import proofs.«158642_j3556232921810_1_alg».proof.Proof.Spec
import Idealize.ShloMosaic.Lib.Pipeline.Value
import Idealize.ShloMosaic.Lib.ValueIdx
import Idealize.ShloMosaic.PureOps.Ideal.Laws

noncomputable section

namespace Cert.Fold.Ker

open Cert.KernelIdeal Cert.KernelIdeal.Gen Idealize.ShloMosaic Idealize.ShloMosaic.ValueIdx Cert.Fold

/-! ## The block product read at an index -/

theorem lhs_blk_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem lhs_blk_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
theorem rhs_blk_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem rhs_blk_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

/-- The matrix unit's product of two [512, 2048] blocks over their shared last axis, into a zero accumulator, read at
    `(p, q)`: the sum over `k` of the left block at `(p, k)` times the right block at `(q, k)`. -/
theorem dot_blk_apply (a b : FVec Ideal S512x2048 .bf16) (i : S512x512.Idx) :
    matmul dot_S512x2048_S512x2048_S512x512_1_1_0_0_n_n none a b (constant S512x512 .f32 0x00000000#32) i
      = ∑ k : Fin 2048, a (ix2 (i 0) k) * b (ix2 (i 1) k) := by
  simp only [matmul]
  rw [Ideal.matmul_constant_zero_apply, ← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx i ((ValueIdx.contrEquiv1 dot_S512x2048_S512x2048_S512x512_1_1_0_0_n_n 2048 rfl rfl).symm k) = ix2 (i 0) k := funext fun a => Fin.ext (by
    match a with
    | ⟨0, _⟩ => exact lhs_blk_0 _ _
    | ⟨1, _⟩ => exact (lhs_blk_1 _ _).trans hk)
  have er : dot_S512x2048_S512x2048_S512x512_1_1_0_0_n_n.rhsIdx i ((ValueIdx.contrEquiv1 dot_S512x2048_S512x2048_S512x512_1_1_0_0_n_n 2048 rfl rfl).symm k) = ix2 (i 1) k := funext fun a => Fin.ext (by
    match a with
    | ⟨0, _⟩ => exact rhs_blk_0 _ _
    | ⟨1, _⟩ => exact (rhs_blk_1 _ _).trans hk)
  rw [el, er]
  rfl

/-! ## A row broadcast down the rows -/

/-- A [1, 512] row, broadcast to [512, 512], read at `(p, q)` is the row at `(0, q)`. -/
theorem bcast_row (v : Vec Ideal S1x512 .f32) (i : S512x512.Idx) :
    broadcastTo S512x512 (shapeCast S1x512 v shapeCasts_S1x512_S1x512) broadcasts_S1x512_S512x512 i = v (ix2 0 (i 1)) := by
  rw [shapeCast_self]
  exact broadcastTo_apply v broadcasts_S1x512_S512x512 i (ix2 0 (i 1)) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

/-! ## The payload at an index -/

/-- What the body stores, at `(p, q)`: the block product there, times the scale row at `q`, plus the bias row at `q`. -/
theorem pay_apply (x0 x1 : Vec Ideal S512x2048 .f32) (x2 x3 : Vec Ideal S1x512 .f32) (i : S512x512.Idx) :
    k0_pay1 x0 x1 x2 x3 i = (∑ k : Fin 2048, x0 (ix2 (i 0) k) * x1 (ix2 (i 1) k)) * x2 (ix2 0 (i 1)) + x3 (ix2 0 (i 1)) := by
  unfold k0_pay1
  show (matmul (F := Ideal) dot_S512x2048_S512x2048_S512x512_1_1_0_0_n_n none (truncf (F := Ideal) .bf16 x0 bitsLt_bf16_f32) (truncf (F := Ideal) .bf16 x1 bitsLt_bf16_f32) (constant (F := Ideal) S512x512 .f32 0x00000000#32) i : EReal)
      * (broadcastTo S512x512 (shapeCast S1x512 x2 shapeCasts_S1x512_S1x512) broadcasts_S1x512_S512x512 i : EReal)
      + (broadcastTo S512x512 (shapeCast S1x512 x3 shapeCasts_S1x512_S1x512) broadcasts_S1x512_S512x512 i : EReal) = _
  rw [dot_blk_apply, bcast_row, bcast_row]
  rfl

/-! ## The block as a piece of one whole-array function -/

abbrev SR : Shape := ⟨2, ![1, 2048]⟩

/-- The multiply-add over whole arrays: the contraction at `(b, o)`, times the scale row at `o`, plus the bias row at `o`. -/
def affOut (X : SX.Idx → EReal) (W : SW.Idx → EReal) (CS CB : SR.Idx → EReal) : SX.Idx → EReal := fun i =>
  dotAt X W (i 0) (i 1) * CS (ix2 0 (i 1)) + CB (ix2 0 (i 1))

/-- If the four loaded blocks are the pieces of the whole arrays that entry `I` of the whole result reads, the
    payload at `j` is that entry. -/
theorem block_entry (X : SX.Idx → EReal) (W : SW.Idx → EReal) (CS CB : SR.Idx → EReal)
    (x0 x1 : Vec Ideal S512x2048 .f32) (x2 x3 : Vec Ideal S1x512 .f32) (j : S512x512.Idx) (I : SX.Idx)
    (h0 : ∀ k : Fin 2048, x0 (ix2 (j 0) k) = X (ix2 (I 0) k)) (h1 : ∀ k : Fin 2048, x1 (ix2 (j 1) k) = W (ix2 (I 1) k))
    (h2 : x2 (ix2 0 (j 1)) = CS (ix2 0 (I 1))) (h3 : x3 (ix2 0 (j 1)) = CB (ix2 0 (I 1))) :
    k0_pay1 x0 x1 x2 x3 j = affOut X W CS CB I := by
  rw [pay_apply, h2, h3]
  unfold affOut dotAt
  exact congrArg (fun s => s * CS (ix2 0 (I 1)) + CB (ix2 0 (I 1))) (Finset.sum_congr rfl fun k _ => by rw [h0 k, h1 k])

end Cert.Fold.Ker

end
-- ==== Proof.KernelArray.lean ====
/-
  The kernel's result array is `kerOut` of its arguments.

  Before the region the host computes the combined scale and bias as [1, 2048] rows. The grid is 4 × 8: its first
  coordinate picks a 512-column tile (a block of `w` and the row pieces), its second a 512-row tile (a block of `x`);
  point `t` writes block (row tile, column tile) of the output, and the 32 blocks tile the [4096, 2048] array. What
  point `t` writes is block `t` of ONE whole-array function — the multiply-add `affOut` of `x`, `w` and the two
  rows — so the array ends at that function, and with the rows read at a column it is `kerOut`.
-/
import proofs.«158642_j3556232921810_1_alg».proof.Proof.Gen.KernelIdeal.Value
import proofs.«158642_j3556232921810_1_alg».proof.Proof.KernelBlock
import Idealize.ShloMosaic.Lib.StableHlo.Run

set_option maxRecDepth 16384

noncomputable section

namespace Cert.Fold.Ker

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.Fold
open Idealize.ShloMosaic.Pipeline (Dat)

variable (m : (ℓ : Loc nD τ sig) → Buf (Elt Ideal) ℓ) (ρ : Dev nD → PrngReg)

/-! ## The two rows the host computes before the region -/

/-- The combined scale row as the region finds it: the reshape to [1, 2048] of `(scale·γ)·(1/√(var + ε))`. -/
theorem scaleRow_eq (c : Dev nD) : (V m c main_v7 : S1x2048.Idx → EReal)
    = shapeCast S1x2048 (mulf (mulf (m ((c : Thread nD τ).loc main_arg2)) (m ((c : Thread nD τ).loc main_arg5)))
        (Host.divf (broadcastInDim S2048 ![] bcast_S_S2048 (constant (F := Ideal) S_ .f32 0x3F800000#32))
          (Host.sqrt (addf (m ((c : Thread nD τ).loc main_arg4)) (broadcastInDim S2048 ![] bcast_S_S2048 (constant (F := Ideal) S_ .f32 0x3727C5AC#32))))))
        shapeCasts_S2048_S1x2048 := by
  dsimp only [Gen.V, Gen.hostOps0]
  after_results
  rfl

/-- The combined bias row as the region finds it: the reshape to [1, 2048] of `β − (μ·γ)·(1/√(var + ε))`. -/
theorem biasRow_eq (c : Dev nD) : (V m c main_v11 : S1x2048.Idx → EReal)
    = shapeCast S1x2048 (subf (m ((c : Thread nD τ).loc main_arg6)) (mulf (mulf (m ((c : Thread nD τ).loc main_arg3)) (m ((c : Thread nD τ).loc main_arg5)))
        (Host.divf (broadcastInDim S2048 ![] bcast_S_S2048 (constant (F := Ideal) S_ .f32 0x3F800000#32))
          (Host.sqrt (addf (m ((c : Thread nD τ).loc main_arg4)) (broadcastInDim S2048 ![] bcast_S_S2048 (constant (F := Ideal) S_ .f32 0x3727C5AC#32)))))))
        shapeCasts_S2048_S1x2048 := by
  dsimp only [Gen.V, Gen.hostOps0]
  after_results
  rfl

/-- A length-2048 vector reshaped to a [1, 2048] row is read at `(0, o)` where the vector is read at `o`. -/
theorem row_apply (v : S2048.Idx → EReal) (o : Fin 2048) :
    shapeCast S1x2048 v shapeCasts_S2048_S1x2048 (ix2 0 o) = v (ix1 o) :=
  shapeCast_apply v shapeCasts_S2048_S1x2048 (ix2 0 o) (ix1 o) (by
    rw [Shape.rowMajor_val_one, Shape.rowMajor_val_two]
    show o.val = 0 * 2048 + o.val
    omega)

/-- The scale row at column `o` is the combined scale of `Spec`. -/
theorem scaleRow_apply (c : Dev nD) (o : Fin 2048) : (V m c main_v7 : S1x2048.Idx → EReal) (ix2 0 o)
    = combScale (m ((c : Thread nD τ).loc main_arg2)) (m ((c : Thread nD τ).loc main_arg4)) (m ((c : Thread nD τ).loc main_arg5)) o := by
  rw [scaleRow_eq, row_apply]
  rfl

/-- The bias row at column `o` is the combined bias of `Spec`. -/
theorem biasRow_apply (c : Dev nD) (o : Fin 2048) : (V m c main_v11 : S1x2048.Idx → EReal) (ix2 0 o)
    = combBias (m ((c : Thread nD τ).loc main_arg3)) (m ((c : Thread nD τ).loc main_arg4)) (m ((c : Thread nD τ).loc main_arg5)) (m ((c : Thread nD τ).loc main_arg6)) o := by
  rw [biasRow_eq, row_apply]
  rfl

/-! ## What a grid point writes back -/

theorem zero_off : (![0, 0] : Fin 2 → Nat) = fun _ => 0 := funext fun a => by fin_cases a <;> rfl

/-- The printed index maps over the 32 grid points: the `x` block follows the output's row tile, the `w` block and
    the two row pieces its column tile; the row tile is below 8 and the column tile below 4. -/
theorem tile_facts : ∀ t : Fin cfg0.N, win0_0.index t (0 : Fin 2) = win0_4.index t (0 : Fin 2)
    ∧ win0_0.index t (1 : Fin 2) = 0
    ∧ win0_1.index t (0 : Fin 2) = win0_4.index t (1 : Fin 2)
    ∧ win0_1.index t (1 : Fin 2) = 0
    ∧ win0_2.index t (0 : Fin 2) = 0
    ∧ win0_2.index t (1 : Fin 2) = win0_4.index t (1 : Fin 2)
    ∧ win0_3.index t (0 : Fin 2) = 0
    ∧ win0_3.index t (1 : Fin 2) = win0_4.index t (1 : Fin 2)
    ∧ win0_4.index t (0 : Fin 2) ≤ 7 ∧ win0_4.index t (1 : Fin 2) ≤ 3 :=
  (by decide +kernel : ∀ t : Fin grid0.N, _)

/-- Every (row tile, column tile) is some point's. -/
theorem tile_onto : ∀ (q0 : Fin 8) (q1 : Fin 4), ∃ t : Fin cfg0.N, win0_4.index t = ![q0.val, q1.val] :=
  (by decide +kernel : ∀ (q0 : Fin 8) (q1 : Fin 4), ∃ t : Fin grid0.N, win0_4.index t = ![q0.val, q1.val])

/-- WHAT POINT `t` WRITES BACK is block `t` of the multiply-add of the arrays as the region finds them. -/
theorem flushed_eq (c : Dev nD) (t : Fin cfg0.N) :
    (dats m 0 c).flushed 4 t = ((cfg0.win 4).blk t).view.read (Elt Ideal)
      (affOut (V m c main_arg0) (V m c main_arg1) (V m c main_v7) (V m c main_v11)) := by
  rw [Value.flushed4]
  unfold out0_4
  rw [View.canon_unit_zero zero_off]
  simp only [View.ld_unit_zero (S := S512x2048) zero_off, View.ld_unit_zero (S := S1x512) zero_off]
  obtain ⟨e00, e01, e10, e11, e20, e21, e30, e31, -, -⟩ := tile_facts t
  funext j
  show k0_pay1 (iblk m c 0 t) (iblk m c 1 t) (iblk m c 2 t) (iblk m c 3 t) j
    = affOut (V m c main_arg0) (V m c main_arg1) (V m c main_v7) (V m c main_v11) (((cfg0.win 4).blk t).view.emb j)
  refine block_entry (V m c main_arg0) (V m c main_arg1) (V m c main_v7) (V m c main_v11)
    (iblk m c 0 t) (iblk m c 1 t) (iblk m c 2 t) (iblk m c 3 t) j (((cfg0.win 4).blk t).view.emb j) ?_ ?_ ?_ ?_
  · intro k
    show V m c main_arg0 (((cfg0.win 0).blk t).view.emb (ix2 (j 0) k)) = V m c main_arg0 (ix2 ((((cfg0.win 4).blk t).view.emb j) 0) k)
    refine congrArg (V m c main_arg0) (funext fun a => Fin.ext ?_)
    match a with
    | ⟨0, _⟩ => show win0_0.index t (0 : Fin 2) * 512 + 1 * (j 0).val = win0_4.index t (0 : Fin 2) * 512 + 1 * (j 0).val; omega
    | ⟨1, _⟩ => show win0_0.index t (1 : Fin 2) * 2048 + 1 * k.val = k.val; omega
  · intro k
    show V m c main_arg1 (((cfg0.win 1).blk t).view.emb (ix2 (j 1) k)) = V m c main_arg1 (ix2 ((((cfg0.win 4).blk t).view.emb j) 1) k)
    refine congrArg (V m c main_arg1) (funext fun a => Fin.ext ?_)
    match a with
    | ⟨0, _⟩ => show win0_1.index t (0 : Fin 2) * 512 + 1 * (j 1).val = win0_4.index t (1 : Fin 2) * 512 + 1 * (j 1).val; omega
    | ⟨1, _⟩ => show win0_1.index t (1 : Fin 2) * 2048 + 1 * k.val = k.val; omega
  · show V m c main_v7 (((cfg0.win 2).blk t).view.emb (ix2 0 (j 1))) = V m c main_v7 (ix2 0 ((((cfg0.win 4).blk t).view.emb j) 1))
    refine congrArg (V m c main_v7) (funext fun a => Fin.ext ?_)
    match a with
    | ⟨0, _⟩ => show win0_2.index t (0 : Fin 2) * 1 + 1 * 0 = 0; omega
    | ⟨1, _⟩ => show win0_2.index t (1 : Fin 2) * 512 + 1 * (j 1).val = win0_4.index t (1 : Fin 2) * 512 + 1 * (j 1).val; omega
  · show V m c main_v11 (((cfg0.win 3).blk t).view.emb (ix2 0 (j 1))) = V m c main_v11 (ix2 0 ((((cfg0.win 4).blk t).view.emb j) 1))
    refine congrArg (V m c main_v11) (funext fun a => Fin.ext ?_)
    match a with
    | ⟨0, _⟩ => show win0_3.index t (0 : Fin 2) * 1 + 1 * 0 = 0; omega
    | ⟨1, _⟩ => show win0_3.index t (1 : Fin 2) * 512 + 1 * (j 1).val = win0_4.index t (1 : Fin 2) * 512 + 1 * (j 1).val; omega

/-! ## The blocks tile the array -/

/-- An index of the array is in point `t`'s block iff each coordinate is in the block's range on its axis. -/
theorem mem_blk (t : Fin cfg0.N) (i : S4096x2048.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v12).slice (win0_4.rect t)).set ↔ _
  rw [View.set_slice_whole, Rect.mem_set_unit]
  exact Iff.rfl

/-- Every index of the output is in the block of the point whose tiles are (row / 512, column / 512). -/
theorem covered (i : S4096x2048.Idx) : ∃ t : Fin cfg0.N, (cfg0.win 4).flush t = true ∧ i ∈ ((cfg0.win 4).blk t).view.set := by
  have hi0 : (i 0).val < 4096 := (i 0).isLt
  have hi1 : (i 1).val < 2048 := (i 1).isLt
  obtain ⟨t, ht⟩ := tile_onto ⟨(i 0).val / 512, by omega⟩ ⟨(i 1).val / 512, by omega⟩
  have q0 : win0_4.index t (0 : Fin 2) = (i 0).val / 512 := congrFun ht 0
  have q1 : win0_4.index t (1 : Fin 2) = (i 1).val / 512 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-! ## The array after the run -/

/-- The output array after the run is the multiply-add of the arrays as the region finds them … -/
theorem final_aff (c : Dev nD) : (dats m 0 c).arrAt 4 cfg0.N
    = affOut (V m c main_arg0) (V m c main_arg1) (V m c main_v7) (V m c main_v11) :=
  (dats m 0 c).arrAt_eq_of_cover 4 _ (fun t _ => flushed_eq m c t) covered

/-- The multiply-add with rows that read, at each column, as the combined scale and bias, is the kernel's arrangement. -/
theorem aff_eq_ker (X : SX.Idx → EReal) (W : SW.Idx → EReal) (CS CB : SR.Idx → EReal) (sc mu var g be : SC.Idx → EReal)
    (hcs : ∀ o : Fin 2048, CS (ix2 0 o) = combScale sc var g o) (hcb : ∀ o : Fin 2048, CB (ix2 0 o) = combBias mu var g be o) :
    affOut X W CS CB = kerOut X W sc mu var g be := by
  funext i
  show dotAt X W (i 0) (i 1) * CS (ix2 0 (i 1)) + CB (ix2 0 (i 1))
    = dotAt X W (i 0) (i 1) * combScale sc var g (i 1) + combBias mu var g be (i 1)
  rw [hcs (i 1), hcb (i 1)]

/-- … which is the kernel's arrangement of the seven argument arrays. -/
theorem final (c : Dev nD) : (dats m 0 c).arrAt 4 cfg0.N
    = kerOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [final_aff, V_main_arg0, V_main_arg1]
  exact aff_eq_ker _ _ _ _ _ _ _ _ _ (scaleRow_apply m c) (biasRow_apply m c)

/-- The kernel's run, its result array named as `kerOut` of the arguments, the arguments unchanged. -/
theorem run : θ_run defs (onTc (τ := τ) (main (F := Ideal))) ⟨m, fun _ => 0, ρ⟩ fun r => ∀ c : Dev nD,
      r.2.mem ((c : Thread nD τ).loc main_v12)
        = kerOut (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.Fold.Ker

end
-- ==== Proof.lean ====
/-
  A linear layer with a per-channel scale and an inference batch-norm, against its jnp reference, over the extended
  reals.

  The reference computes, for `x : [4096, 2048]`, `w : [2048, 2048]` and per-channel vectors `scale`, `μ`, `var`,
  `γ`, `β`:  `out[b,o] = γ[o] · ((∑ₖ x[b,k]·w[o,k]) · scale[o] − μ[o]) / √(var[o] + ε) + β[o]`.
  The kernel folds the epilogue into one affine pair computed on the host before the region,
  `cs[o] = (scale[o]·γ[o])·(1/√(var[o] + ε))` and `cb[o] = β[o] − (μ[o]·γ[o])·(1/√(var[o] + ε))`, and a 4 × 8 grid
  of [512, 512] output blocks stores `(xblk · wblkᵀ)·cs + cb`.

  The two are one function where the batch-norm is defined: every input a real number and every radicand
  `var[o] + ε` positive, so that `√(var[o] + ε)` is a positive real and the quotient is the product with its
  reciprocal; then the equality is a law of the field of reals (`EntryLaw.entry_eq`). At `var[o] = −ε` the
  divisor is zero, the reference's entry is an infinity, and the kernel's `a·cs + cb` is `∞ − ∞`: the
  precondition keeps the radicand positive, the domain of the reference's own square root and quotient.

  The pieces: `PreRead` reads the precondition back entry by entry; `KernelArray` names the kernel's result array
  as `kerOut` of the arguments (over the generated frame run and blockwise value leg); `RefValue` names the
  reference's as `refOut` (over the generated run, stage by stage); `Spec.kerOut_eq_refOut` joins them.
  The three frames are the generated ones; the ideal pass rewrote nothing, so `preserves` is trivial.
-/
import proofs.«158642_j3556232921810_1_alg».proof.Defs
import proofs.«158642_j3556232921810_1_alg».proof.Proof.Gen.Kernel
import proofs.«158642_j3556232921810_1_alg».proof.Proof.Gen.Kernel.Skeleton
import proofs.«158642_j3556232921810_1_alg».proof.Proof.Gen.Kernel.Launch
import proofs.«158642_j3556232921810_1_alg».proof.Proof.Gen.Kernel.Points
import proofs.«158642_j3556232921810_1_alg».proof.Proof.Gen.Kernel.Frame
import proofs.«158642_j3556232921810_1_alg».proof.Proof.Gen.KernelIdeal
import proofs.«158642_j3556232921810_1_alg».proof.Proof.Gen.KernelIdeal.Skeleton
import proofs.«158642_j3556232921810_1_alg».proof.Proof.Gen.KernelIdeal.Launch
import proofs.«158642_j3556232921810_1_alg».proof.Proof.Gen.KernelIdeal.Points
import proofs.«158642_j3556232921810_1_alg».proof.Proof.Gen.KernelIdeal.Frame
import proofs.«158642_j3556232921810_1_alg».proof.Proof.Gen.ReferenceIdeal
import proofs.«158642_j3556232921810_1_alg».proof.Proof.Gen.Pre_finite_inputs
import proofs.«158642_j3556232921810_1_alg».proof.Proof.Gen.KernelIdeal.Value
import proofs.«158642_j3556232921810_1_alg».proof.Proof.Gen.ReferenceIdeal.Run
import proofs.«158642_j3556232921810_1_alg».proof.Proof.Gen.ReferenceIdeal.Read
import proofs.«158642_j3556232921810_1_alg».proof.Proof.PreRead
import proofs.«158642_j3556232921810_1_alg».proof.Proof.RefValue
import proofs.«158642_j3556232921810_1_alg».proof.Proof.KernelArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs run; the kernel's result array is `kerOut` of its arguments and the reference's is `refOut` of
    the same arguments, and under the precondition (reals, positive radicands) these are one array. -/
theorem algebraic : Cert.algebraic_KernelIdeal_ReferenceIdeal := by
  intro m ρ m' ρ' hpre hagree
  refine ⟨_, Cert.Fold.Ker.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _ _ _ _ _ _ _).trans ?_
  rw [Cert.Fold.Ref.result_eq, (hagree c).1, (hagree c).2.1, (hagree c).2.2.1, (hagree c).2.2.2.1, (hagree c).2.2.2.2.1,
    (hagree c).2.2.2.2.2.1, (hagree c).2.2.2.2.2.2]
  obtain ⟨h0, h1, h2, h3, h4, h5, h6, hpos⟩ := Cert.Fold.args_of_pre _ _ _ _ _ _ _ (hpre c)
  exact (Cert.Fold.kerOut_eq_refOut _ _ _ _ _ _ _ h0 h1 h2 h3 h4 h5 h6 hpos).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
